-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩
abbrev S100000x64 : Shape := ⟨2, ![100000, 64]⟩
abbrev S1600000x64 : Shape := ⟨2, ![1600000, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 43
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x64, .f32⟩
  | .local _ .vmem, ⟨10, _⟩ => ⟨S2000x64, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelHost.lean ====
/-
  What the host operations around the two pallas_calls leave in the buffers the calls read, as terms of the launch memory.

  Before the first call the host cuts the edge array into its source row and its destination row, wraps negative source
  words by the table's height, gathers the node rows the sources select and adds them into a zero table at the
  destinations: the aggregated table.  It also lays the first bias out as one row.  Between the calls it multiplies the
  first call's output by `W_l2`, aggregates that product over the same edges, and lays the second bias out as one row.
  No host operation and no call writes an argument array.
-/
import proofs.«418174_j56994216018168_4_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- The edges' source words: row 0 of the edge array. -/
abbrev srcVec (E : (⟨S2x1600000, .i32⟩ : BufTy).Contents (Elt F)) : (⟨S1600000, .i32⟩ : BufTy).Contents (Elt F) :=
  shapeCast _ (extractStridedSlice S1x1600000 ![0, 0] E slices_S2x1600000_S1x1600000_0_0) shapeCasts_S1x1600000_S1600000
/-- The edges' destination words: row 1 of the edge array. -/
abbrev dstVec (E : (⟨S2x1600000, .i32⟩ : BufTy).Contents (Elt F)) : (⟨S1600000, .i32⟩ : BufTy).Contents (Elt F) :=
  shapeCast _ (extractStridedSlice S1x1600000 ![1, 0] E slices_S2x1600000_S1x1600000_1_0) shapeCasts_S1x1600000_S1600000
/-- The start indices of the gathers, from the source words: a negative word wrapped by the table's height. -/
abbrev srcIxOf (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The scatter indices, from the destination words. -/
abbrev dstIxOf (d : (⟨S1600000, .i32⟩ : BufTy).Contents (Elt F)) : (⟨S1600000x1, .i32⟩ : BufTy).Contents (Elt F) :=
  broadcastInDim S1600000x1 ![0] bcast_S1600000_S1600000x1_0 d

/-- The neighbour sum of a 128-wide table as the host computes it. -/
abbrev agg128 (X : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIxOf d)
    (Host.gather gather_S100000x128_S1600000x1_S1600000x128_1_0_n_n_0_1_1128 X (srcIxOf s))
/-- The neighbour sum of a 64-wide table as the host computes it. -/
abbrev agg64 (P : (⟨S100000x64, .f32⟩ : BufTy).Contents (Elt F)) (s d : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstIxOf d)
    (Host.gather gather_S100000x64_S1600000x1_S1600000x64_1_0_n_n_0_1_164 P (srcIxOf s))

/-! ## The first stretch, from any contents -/

section Stretch0
variable (W : Valuation τ sig (Elt F))

theorem s0_v13 : StableHlo.after hostOps0 W (Proc.devRef .tc main_v13)
    = agg128 (W (Proc.devRef .tc main_arg0)) (srcVec (W (Proc.devRef .tc main_arg1))) (dstVec (W (Proc.devRef .tc main_arg1))) := by
  after_results <;> rfl
theorem s0_v14 : StableHlo.after hostOps0 W (Proc.devRef .tc main_v14)
    = shapeCast _ (W (Proc.devRef .tc main_arg3)) shapeCasts_S128_S1x128 := by
  after_results <;> rfl
theorem s0_v1 : StableHlo.after hostOps0 W (Proc.devRef .tc main_v1) = srcVec (W (Proc.devRef .tc main_arg1)) := by
  after_results <;> rfl
theorem s0_v3 : StableHlo.after hostOps0 W (Proc.devRef .tc main_v3) = dstVec (W (Proc.devRef .tc main_arg1)) := by
  after_results <;> rfl
end Stretch0

/-! ## The second stretch, from any contents -/

section Stretch1
variable (W : Valuation τ sig (Elt F))

theorem s1_v26 : StableHlo.after hostOps1 W (Proc.devRef .tc main_v26)
    = agg64 (Host.dotGeneral dot_S100000x128_S128x64_S100000x64_1_0_0_1_n_n (some .fp32) (W (Proc.devRef .tc main_v15)) (W (Proc.devRef .tc main_arg5)))
        (W (Proc.devRef .tc main_v1)) (W (Proc.devRef .tc main_v3)) := by
  after_results <;> rfl
theorem s1_v27 : StableHlo.after hostOps1 W (Proc.devRef .tc main_v27)
    = shapeCast _ (W (Proc.devRef .tc main_arg6)) shapeCasts_S64_S1x64 := by
  after_results <;> rfl
theorem s1_v15 : StableHlo.after hostOps1 W (Proc.devRef .tc main_v15) = W (Proc.devRef .tc main_v15) := by
  after_results <;> rfl
theorem s1_arg7 : StableHlo.after hostOps1 W (Proc.devRef .tc main_arg7) = W (Proc.devRef .tc main_arg7) := by
  after_results <;> rfl
end Stretch1

/-! ## What each call is entered with, and what is left at the end -/

section Stretch0Args
variable (W : Valuation τ sig (Elt F))
theorem s0_arg0 : StableHlo.after hostOps0 W (Proc.devRef .tc main_arg0) = W (Proc.devRef .tc main_arg0) := by after_results <;> rfl
theorem s0_arg2 : StableHlo.after hostOps0 W (Proc.devRef .tc main_arg2) = W (Proc.devRef .tc main_arg2) := by after_results <;> rfl
theorem s0_arg4 : StableHlo.after hostOps0 W (Proc.devRef .tc main_arg4) = W (Proc.devRef .tc main_arg4) := by after_results <;> rfl
theorem s0_arg5 : StableHlo.after hostOps0 W (Proc.devRef .tc main_arg5) = W (Proc.devRef .tc main_arg5) := by after_results <;> rfl
theorem s0_arg6 : StableHlo.after hostOps0 W (Proc.devRef .tc main_arg6) = W (Proc.devRef .tc main_arg6) := by after_results <;> rfl
theorem s0_arg7 : StableHlo.after hostOps0 W (Proc.devRef .tc main_arg7) = W (Proc.devRef .tc main_arg7) := by after_results <;> rfl
end Stretch0Args

variable (m : (ℓ : Loc nD τ sig) → Buf (Elt F) ℓ) (ρ : Dev nD → PrngReg)

/-- The edge array's two rows, from the launch memory. -/
abbrev srcOf (c : Dev nD) : (⟨S1600000, .i32⟩ : BufTy).Contents (Elt F) := srcVec (m ((c : Thread nD τ).loc main_arg1))
abbrev dstOf (c : Dev nD) : (⟨S1600000, .i32⟩ : BufTy).Contents (Elt F) := dstVec (m ((c : Thread nD τ).loc main_arg1))

/-! The first call's operands at its entry. -/
theorem V1_v13 (c : Dev nD) : V1 m ρ c main_v13 = agg128 (m ((c : Thread nD τ).loc main_arg0)) (srcOf m c) (dstOf m c) := s0_v13 (W0 m ρ c)
theorem V1_v14 (c : Dev nD) : V1 m ρ c main_v14 = shapeCast _ (m ((c : Thread nD τ).loc main_arg3)) shapeCasts_S128_S1x128 := s0_v14 (W0 m ρ c)
theorem V1_arg0 (c : Dev nD) : V1 m ρ c main_arg0 = m ((c : Thread nD τ).loc main_arg0) := s0_arg0 (W0 m ρ c)
theorem V1_arg2 (c : Dev nD) : V1 m ρ c main_arg2 = m ((c : Thread nD τ).loc main_arg2) := s0_arg2 (W0 m ρ c)
theorem V1_arg4 (c : Dev nD) : V1 m ρ c main_arg4 = m ((c : Thread nD τ).loc main_arg4) := s0_arg4 (W0 m ρ c)

/-! What the second stretch reads, after the first call: the first call's output array, and buffers it did not touch. -/
theorem W2_v15 (c : Dev nD) : W2 m ρ c (Proc.devRef .tc main_v15) = (dat0 (V1 m ρ) c).arrAt 5 cfg0.N := W2_arr m ρ c 5
theorem W2_v1 (c : Dev nD) : W2 m ρ c (Proc.devRef .tc main_v1) = srcOf m c :=
  (W2_of_ne m ρ c main_v1 (by decide)).trans (s0_v1 (W0 m ρ c))
theorem W2_v3 (c : Dev nD) : W2 m ρ c (Proc.devRef .tc main_v3) = dstOf m c :=
  (W2_of_ne m ρ c main_v3 (by decide)).trans (s0_v3 (W0 m ρ c))
theorem W2_arg5 (c : Dev nD) : W2 m ρ c (Proc.devRef .tc main_arg5) = m ((c : Thread nD τ).loc main_arg5) :=
  (W2_of_ne m ρ c main_arg5 (by decide)).trans (s0_arg5 (W0 m ρ c))
theorem W2_arg6 (c : Dev nD) : W2 m ρ c (Proc.devRef .tc main_arg6) = m ((c : Thread nD τ).loc main_arg6) :=
  (W2_of_ne m ρ c main_arg6 (by decide)).trans (s0_arg6 (W0 m ρ c))
theorem W2_arg7 (c : Dev nD) : W2 m ρ c (Proc.devRef .tc main_arg7) = m ((c : Thread nD τ).loc main_arg7) :=
  (W2_of_ne m ρ c main_arg7 (by decide)).trans (s0_arg7 (W0 m ρ c))

/-! The second call's operands at its entry. -/
theorem V3_v26 (c : Dev nD) : V3 m ρ c main_v26
    = agg64 (Host.dotGeneral dot_S100000x128_S128x64_S100000x64_1_0_0_1_n_n (some .fp32) ((dat0 (V1 m ρ) c).arrAt 5 cfg0.N)
        (m ((c : Thread nD τ).loc main_arg5))) (srcOf m c) (dstOf m c) := by
  refine (s1_v26 (W2 m ρ c)).trans ?_
  rw [W2_v15, W2_arg5, W2_v1, W2_v3]
theorem V3_v27 (c : Dev nD) : V3 m ρ c main_v27 = shapeCast _ (m ((c : Thread nD τ).loc main_arg6)) shapeCasts_S64_S1x64 := by
  refine (s1_v27 (W2 m ρ c)).trans ?_
  rw [W2_arg6]
theorem V3_v15 (c : Dev nD) : V3 m ρ c main_v15 = (dat0 (V1 m ρ) c).arrAt 5 cfg0.N :=
  (s1_v15 (W2 m ρ c)).trans (W2_v15 m ρ c)
theorem V3_arg7 (c : Dev nD) : V3 m ρ c main_arg7 = m ((c : Thread nD τ).loc main_arg7) :=
  (s1_arg7 (W2 m ρ c)).trans (W2_arg7 m ρ c)

/-- The result buffer at the last boundary is the second call's output array as its write-backs leave it. -/
theorem W4_v28 (c : Dev nD) : W4 m ρ c (Proc.devRef .tc main_v28) = (dat1 (V3 m ρ) c).arrAt 4 cfg1.N := W4_arr m ρ c 4

end Cert.KernelIdeal.HostValue

end
-- ==== Proof.Spec.lean ====
/-
  The mathematics of a two-layer neighbour-sum network, index by index, on the extended reals.

  A graph has `n` nodes and `ne` edges; edge `e` carries a source word and a destination word.  The neighbour sum of a
  table `h` (one row per node) at node `i` adds the rows `h (row of the source word of e)` over the edges `e` whose
  destination word is `i` (read signed; a destination outside the table is dropped, a source outside it is clamped to the
  nearest row).  A layer is `(neighbour sum) · W_l + b + (own row) · W_r`; the first layer is followed by `max · 0`, the
  second by a softmax along each row.

  Two arrangements of the second layer are stated: the neighbour sum taken first and multiplied by `W_l` afterwards, and
  the product `h · W_l` taken first and summed over neighbours afterwards.  They agree when `h` and `W_l` are finite,
  because then a product distributes over a finite sum (`mm_nbrSum`, proved with the facts about finite numbers); on the
  extended reals alone it would not.
-/
import Idealize.ShloMosaic.PureOps.Ideal
import Idealize.ShloMosaic.Lib.ValueIdx

noncomputable section

namespace Cert.SageSpec

open Idealize.ShloMosaic Idealize.ShloMosaic.ValueIdx

/-- A rank-2 array read by its two coordinates. -/
abbrev at2 {α : Type} {a b : Nat} (x : (⟨2, ![a, b]⟩ : Shape).Idx → α) : Fin a → Fin b → α := fun r c => x (ix2 r c)
/-- A rank-1 array read by its coordinate. -/
abbrev at1 {α : Type} {a : Nat} (x : (⟨1, ![a]⟩ : Shape).Idx → α) : Fin a → α := fun r => x (ix1 r)

/-- The matrix product, entry by entry: row `r` of `A` against column `j` of `W`. -/
def mm {n k c : Nat} (A : Fin n → Fin k → EReal) (W : Fin k → Fin c → EReal) : Fin n → Fin c → EReal :=
  fun r j => ∑ q, A r q * W q j

/-- The row of an `n`-row table a start word selects: read signed, clamped into `[0, n − 1]`. -/
def clampRow (n : Nat) (hn : 0 < n) (z : BitVec 32) : Fin n := ⟨min z.toInt.toNat (n - 1), by omega⟩

/-- The neighbour sum of the table `h`: at node `i`, the rows selected by the source words of the edges whose destination
    word is `i`, added up column by column. -/
def nbrSum {n ne c : Nat} (hn : 0 < n) (si di : Fin ne → BitVec 32) (h : Fin n → Fin c → EReal) : Fin n → Fin c → EReal :=
  fun i j => ∑ e ∈ Finset.univ.filter (fun e : Fin ne => (di e).toInt = (i.val : Int)), h (clampRow n hn (si e)) j

/-- The first layer with the two products added first and the bias last, then `max · 0`. -/
def hidSumFirst {n k c : Nat} (A X : Fin n → Fin k → EReal) (Wl Wr : Fin k → Fin c → EReal) (b : Fin c → EReal) :
    Fin n → Fin c → EReal := fun r j => max (mm A Wl r j + mm X Wr r j + b j) 0

/-- The first layer with the bias added to the neighbour term first, then `max · 0`. -/
def hidBiasFirst {n k c : Nat} (A X : Fin n → Fin k → EReal) (Wl Wr : Fin k → Fin c → EReal) (b : Fin c → EReal) :
    Fin n → Fin c → EReal := fun r j => max (mm A Wl r j + b j + mm X Wr r j) 0

/-- The second layer's pre-activation from an already aggregated, already projected neighbour term `P`. -/
def preProjected {n k c : Nat} (P : Fin n → Fin c → EReal) (H : Fin n → Fin k → EReal) (Wr : Fin k → Fin c → EReal)
    (b : Fin c → EReal) : Fin n → Fin c → EReal := fun r j => P r j + mm H Wr r j + b j

/-- The second layer's pre-activation from the aggregated rows `A`, projected here. -/
def preAggregated {n k c : Nat} (A H : Fin n → Fin k → EReal) (Wl Wr : Fin k → Fin c → EReal) (b : Fin c → EReal) :
    Fin n → Fin c → EReal := fun r j => mm A Wl r j + b j + mm H Wr r j

/-- The value of the word `0xFF800000`, the start of every row maximum. -/
abbrev negInf : EReal := Ideal.ofBits .f32 0xFF800000#32

/-- The maximum a row's softmax subtracts: the fold of `max` over the row from `negInf`, once more against `negInf`. -/
def rowMax {c : Nat} (z : Fin c → EReal) : EReal := max negInf ((Finset.univ : Finset (Fin c)).fold max negInf z)

/-- The softmax of one row. -/
def rowSoftmax {c : Nat} (z : Fin c → EReal) : Fin c → EReal :=
  fun j => Ideal.div (Ideal.exp (z j - rowMax z)) (∑ j' : Fin c, Ideal.exp (z j' - rowMax z))

/-- Both first layers are one function: addition on the extended reals is commutative and associative. -/
theorem hidSumFirst_eq_hidBiasFirst {n k c : Nat} (A X : Fin n → Fin k → EReal) (Wl Wr : Fin k → Fin c → EReal) (b : Fin c → EReal) :
    hidSumFirst A X Wl Wr b = hidBiasFirst A X Wl Wr b := by
  funext r j
  unfold hidSumFirst hidBiasFirst
  rw [add_right_comm]

end Cert.SageSpec

end
-- ==== Proof.Payload.lean ====
/-
  The two kernel bodies' stored values, read at one entry of the block, on the extended reals.

  The first body stores, at row `p` and column `q` of its block, `max (agg · W_l + x · W_r + b) 0`: the two matrix products
  of the row against column `q`, the bias's entry, the larger of that and zero.  The second stores the softmax along row `p`
  of `agg + h · W_r + b`, at column `q`.
-/
import proofs.«418174_j56994216018168_4_alg».proof.Proof.Gen.KernelIdeal.Skeleton
import proofs.«418174_j56994216018168_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayloadAt

open Cert.KernelIdeal Cert.KernelIdeal.Gen Cert.SageSpec Idealize.ShloMosaic Idealize.ShloMosaic.ValueIdx

/-! ### A product into the zero accumulator, read at an entry

The contraction runs over one axis of extent 128: the left operand's index at output `(p, q)` and contraction position
`k` is `(p, k)`, the right operand's is `(k, q)`. -/

theorem lhs_hid_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_hid_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhs_hid_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhs_hid_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The first body's product of a `2000 × 128` block with a `128 × 128` weight, at `(p, q)`: row `p` against column `q`. -/
theorem matmul_hid_apply (A : FVec Ideal S2000x128 .f32) (W : FVec Ideal S128x128 .f32) (p : Fin 2000) (q : Fin 128) :
    matmul dot_S2000x128_S128x128_S2000x128_1_0_0_1_n_n (some .fp32) A W (constant (F := Ideal) S2000x128 .f32 0x00000000#32) (ix2 p q)
      = ∑ k : Fin 128, A (ix2 p k) * W (ix2 k q) := by
  refine (Ideal.matmul_constant_zero_apply dot_S2000x128_S128x128_S2000x128_1_0_0_1_n_n (some .fp32) A W (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_hid_0 _ _
      | ⟨1, _⟩ => exact (lhs_hid_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_hid_0 _ _).trans hk
      | ⟨1, _⟩ => exact rhs_hid_1 _ _)
  rw [el, er]

/-- The first body's stored value at `(p, q)`: the first layer, the two products added before the bias. -/
theorem k0_pay1_apply (v0 v2 : Vec Ideal S2000x128 .f32) (v3 v4 : Vec Ideal S128x128 .f32) (v5 : Vec Ideal S1x128 .f32)
    (p : Fin 2000) (q : Fin 128) :
    k0_pay1 (F := Ideal) v0 v2 v3 v4 v5 (ix2 p q)
      = hidSumFirst (at2 v0) (at2 v2) (at2 v3) (at2 v4) (fun j => v5 (ix2 (0 : Fin 1) j)) p q := by
  unfold k0_pay1 hidSumFirst mm
  simp only [shapeCast_self]
  rw [maximumf_apply, addf_apply, addf_apply, broadcast_apply, broadcastTo_1b_ab_apply, matmul_hid_apply, matmul_hid_apply]
  show max _ (Ideal.ofBits .f32 0x00000000#32) = _
  rw [Ideal.ofBits_zero_f32]

/-! ### The second body's product, read at an entry -/

theorem lhs_out_0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem lhs_out_1 (i : S2000x64.Idx) (c : dot_S2000x128_S128x64_S2000x64_1_0_0_1_n_n.contr.Idx) :
    (dot_S2000x128_S128x64_S2000x64_1_0_0_1_n_n.lhsIdx i c 1).val = (c ⟨0, by decide⟩).val :=
  dot_S2000x128_S128x64_S2000x64_1_0_0_1_n_n.lhsIdx_val_of_single rfl i c
theorem rhs_out_0 (i : S2000x64.Idx) (c : dot_S2000x128_S128x64_S2000x64_1_0_0_1_n_n.contr.Idx) :
    (dot_S2000x128_S128x64_S2000x64_1_0_0_1_n_n.rhsIdx i c 0).val = (c ⟨0, by decide⟩).val :=
  dot_S2000x128_S128x64_S2000x64_1_0_0_1_n_n.rhsIdx_val_of_single rfl i c
theorem rhs_out_1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The second body's product of a `2000 × 128` block with a `128 × 64` weight, at `(p, q)`: row `p` against column `q`. -/
theorem matmul_out_apply (A : FVec Ideal S2000x128 .f32) (W : FVec Ideal S128x64 .f32) (p : Fin 2000) (q : Fin 64) :
    matmul dot_S2000x128_S128x64_S2000x64_1_0_0_1_n_n (some .fp32) A W (constant (F := Ideal) S2000x64 .f32 0x00000000#32) (ix2 p q)
      = ∑ k : Fin 128, A (ix2 p k) * W (ix2 k q) := by
  refine (Ideal.matmul_constant_zero_apply dot_S2000x128_S128x64_S2000x64_1_0_0_1_n_n (some .fp32) A W (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact lhs_out_0 _ _
      | ⟨1, _⟩ => exact (lhs_out_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (rhs_out_0 _ _).trans hk
      | ⟨1, _⟩ => exact rhs_out_1 _ _)
  rw [el, er]

/-! ### A column kept beside a row: the casts and broadcasts of a row statistic -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p` of the operand at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### A row's maximum and a row's sum -/

/-- The index a reduction along the columns reads: row `p`, with the column put back. -/
theorem lift_row (h : S2000x64.Reduces [1] S2000) (p : Fin 2000) (j : Fin 64) : h.lift (ix1 p) j = ix2 p j :=
  funext fun a => Fin.ext (by
    match a with
    | ⟨0, _⟩ => rfl
    | ⟨1, _⟩ => rfl)

/-- The maximum along row `p`: the fold of `max` over the row's entries from the value of `0xFF800000`. -/
theorem laneMax_apply (src : FVec Ideal S2000x64 .f32) (h : S2000x64.Reduces [1] S2000) (p : Fin 2000) :
    multiReduction (F := Ideal) .maximumf [1] S2000 src 0xFF800000#32 h (.inl rfl) rfl (ix1 p)
      = (Finset.univ : Finset (Fin 64)).fold max negInf (fun j => src (ix2 p j)) := by
  refine (Ideal.multiReduction_maximumf_single src 0xFF800000#32 h (.inl rfl) rfl (ix1 p)).trans ?_
  show (Finset.univ : Finset (Fin 64)).fold max negInf (src ∘ h.lift (ix1 p)) = _
  exact congrArg (fun f => (Finset.univ : Finset (Fin 64)).fold max negInf f) (funext fun j => congrArg src (lift_row h p j))

/-- The sum along row `p`. -/
theorem laneSum_apply (src : FVec Ideal S2000x64 .f32) (h : S2000x64.Reduces [1] S2000) (p : Fin 2000) :
    multiReduction (F := Ideal) .add [1] S2000 src 0x00000000#32 h (.inl rfl) rfl (ix1 p) = ∑ j : Fin 64, src (ix2 p j) := by
  refine (Ideal.multiReduction_add_single src 0x00000000#32 h (.inl rfl) rfl (ix1 p)).trans ?_
  exact Finset.sum_congr rfl fun j _ => congrArg src (lift_row h p j)

/-- The exponential of a block, read at an entry. -/
theorem exp_apply {s : Shape} (x : FVec Ideal s .f32) (i : s.Idx) : exp x i = Ideal.exp (x i) := rfl

/-- The second body's stored value at `(p, q)`: the softmax of row `p` of the second layer's pre-activation. -/
theorem k1_pay1_apply (v0 : Vec Ideal S2000x64 .f32) (v2 : Vec Ideal S2000x128 .f32) (v4 : Vec Ideal S128x64 .f32)
    (v5 : Vec Ideal S1x64 .f32) (p : Fin 2000) (q : Fin 64) :
    k1_pay1 (F := Ideal) v0 v2 v4 v5 (ix2 p q)
      = rowSoftmax (preProjected (at2 v0) (at2 v2) (at2 v4) (fun j => v5 (ix2 (0 : Fin 1) j)) p) q := by
  unfold k1_pay1 rowSoftmax rowMax preProjected mm
  simp only [shapeCast_self]
  simp only [divf_apply, exp_apply, subf_apply, broadcastTo_a1_ab_apply, shapeCast_a_a1_apply, maximumf_apply, broadcast_apply]
  rw [laneSum_apply]
  simp only [exp_apply, subf_apply, broadcastTo_a1_ab_apply, shapeCast_a_a1_apply, maximumf_apply, broadcast_apply]
  rw [laneMax_apply]
  simp only [addf_apply, broadcastTo_1b_ab_apply, matmul_out_apply]
  rfl

end Cert.KernelIdeal.PayloadAt

end
-- ==== Proof.Region.lean ====
/-
  What each pallas_call's output array holds after its grid has run, as one function of the arrays the call finds.

  The first call's grid has 50 points; point `t` reads rows `2000 t … 2000 t + 1999` of the aggregated table and of the node
  table, the three small operands whole, and writes the same rows of its output: the first layer of those rows.  The
  blocks tile the 100000 rows, so the output array ends as the first layer of every row.  The second call does the same
  with the second layer's softmax.
-/
import proofs.«418174_j56994216018168_4_alg».proof.Proof.Gen.KernelIdeal.Frame
import proofs.«418174_j56994216018168_4_alg».proof.Proof.Payload
import proofs.«418174_j56994216018168_4_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.PayloadAt Cert.SageSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The first layer of every row, from the arrays the first call finds. -/
def hidArr (c : Dev nD) : S100000x128.Idx → EReal := fun i =>
  hidSumFirst (at2 (V c main_v13)) (at2 (V c main_arg0)) (at2 (V c main_arg2)) (at2 (V c main_arg4))
    (fun j => V c main_v14 (ix2 (0 : Fin 1) j)) (i 0) (i 1)

/-- One entry of the first body's stored block, from rows of whole arrays: the block's rows are rows `R` of the arrays. -/
theorem blockval0 (x0 x1 : Vec Ideal S2000x128 .f32) (x2 : Vec Ideal S128x128 .f32) (x3 : Vec Ideal S1x128 .f32)
    (x4 : Vec Ideal S128x128 .f32) (A X : S100000x128.Idx → EReal) (Wl Wr : S128x128.Idx → EReal) (B : S1x128.Idx → EReal)
    (y : S2000x128.Idx) (p : Fin 2000) (q : Fin 128) (hy : y = ix2 p q) (R : Fin 100000)
    (h0 : ∀ k : Fin 128, x0 (ix2 p k) = A (ix2 R k)) (h1 : ∀ k : Fin 128, x1 (ix2 p k) = X (ix2 R k))
    (h2 : x2 = Wl) (h3 : x3 = B) (h4 : x4 = Wr) :
    k0_pay1 (F := Ideal) x0 x1 x2 x4 x3 y
      = hidSumFirst (at2 A) (at2 X) (at2 Wl) (at2 Wr) (fun j => B (ix2 (0 : Fin 1) j)) R q := by
  subst hy h2 h3 h4
  rw [k0_pay1_apply]
  unfold hidSumFirst mm
  simp only [at2, h0, h1]

/-- The printed index maps over the 50 points: the row-block windows move with the output's, whose block index is the
    point's number; the small operands stay at block 0. -/
theorem idx_facts0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- WHAT POINT `t` WRITES BACK is block `t` of the first layer of every row. -/
theorem flushed0 (c : Dev nD) (t : Fin cfg0.N) :
    (dat0 V c).flushed 5 t = ((cfg0.win 5).blk t).view.read (Elt Ideal) (hidArr V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e50, e51, e00, e01, e10, e11, e20, e21, e30, e31, e40, e41⟩ := idx_facts0 t
  have ht : t.val < 50 := by have := t.isLt; have hN : cfg0.N = 50 := N_0; omega
  funext j
  show k0_pay1 (F := Ideal) (iblk0 V c 0 t) (iblk0 V c 1 t) (iblk0 V c 2 t) (iblk0 V c 4 t) (iblk0 V c 3 t) j
    = hidArr V c (((cfg0.win 5).blk t).view.emb j)
  have hj0 : (j 0).val < 2000 := (j 0).isLt
  have hj1 : (j 1).val < 128 := (j 1).isLt
  refine (blockval0 (iblk0 V c 0 t) (iblk0 V c 1 t) (iblk0 V c 2 t) (iblk0 V c 3 t) (iblk0 V c 4 t)
    (V c main_v13) (V c main_arg0) (V c main_arg2) (V c main_arg4) (V c main_v14) j (j 0) (j 1) (eq_ix2 j)
    ⟨t.val * 2000 + (j 0).val, by omega⟩ ?_ ?_ ?_ ?_ ?_).trans ?_
  · intro k
    show V c main_v13 (((cfg0.win 0).blk t).view.emb (ix2 (j 0) k)) = V c main_v13 (ix2 _ k)
    refine congrArg (V c main_v13) (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 128 + 1 * k.val = k.val; omega
  · intro k
    show V c main_arg0 (((cfg0.win 1).blk t).view.emb (ix2 (j 0) k)) = V c main_arg0 (ix2 _ k)
    refine congrArg (V c main_arg0) (funext fun a => Fin.ext ?_)
    match a with
    | ⟨0, _⟩ => show win0_1.index t (0 : Fin 2) * 2000 + 1 * (j 0).val = t.val * 2000 + (j 0).val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v14 (((cfg0.win 3).blk t).view.emb y) = V c main_v14 y
    refine congrArg (V c main_v14) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · have hr : ((cfg0.win 5).blk t).view.emb j (0 : Fin 2) = (⟨t.val * 2000 + (j 0).val, by omega⟩ : Fin 100000) :=
      Fin.ext (show win0_5.index t (0 : Fin 2) * 2000 + 1 * (j 0).val = t.val * 2000 + (j 0).val by omega)
    have hc : ((cfg0.win 5).blk t).view.emb j (1 : Fin 2) = j 1 :=
      Fin.ext (show win0_5.index t (1 : Fin 2) * 128 + 1 * (j 1).val = (j 1).val by omega)
    show _ = hidSumFirst (at2 (V c main_v13)) (at2 (V c main_arg0)) (at2 (V c main_arg2)) (at2 (V c main_arg4))
      (fun j => V c main_v14 (ix2 (0 : Fin 1) j)) (((cfg0.win 5).blk t).view.emb j (0 : Fin 2)) (((cfg0.win 5).blk t).view.emb j (1 : Fin 2))
    rw [hr, hc]

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- Every row of the output array lies in the block of the point numbered by the row's quotient by the block height. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  refine ⟨⟨(i 0).val / 2000, by omega⟩, flush0_5 _, ?_⟩
  rw [mem_blk0]
  obtain ⟨e50, e51, -⟩ := idx_facts0 ⟨(i 0).val / 2000, by omega⟩
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e51]; omega

/-- THE FIRST CALL'S OUTPUT ARRAY after its grid: the first layer of every row. -/
theorem final0 (c : Dev nD) : (dat0 V c).arrAt 5 cfg0.N = hidArr V c :=
  (dat0 V c).arrAt_eq_of_cover 5 (hidArr V c) (fun t _ => flushed0 V c t) cover0

/-! ## The second call -/

/-- The softmax of the second layer of every row, from the arrays the second call finds. -/
def outArr (c : Dev nD) : S100000x64.Idx → EReal := fun i =>
  rowSoftmax (preProjected (at2 (V c main_v26)) (at2 (V c main_v15)) (at2 (V c main_arg7))
    (fun j => V c main_v27 (ix2 (0 : Fin 1) j)) (i 0)) (i 1)

/-- One entry of the second body's stored block, from rows of whole arrays: the block's rows are rows `R` of the arrays. -/
theorem blockval1 (x0 : Vec Ideal S2000x64 .f32) (x1 : Vec Ideal S2000x128 .f32) (x2 : Vec Ideal S128x64 .f32)
    (x3 : Vec Ideal S1x64 .f32) (A : S100000x64.Idx → EReal) (H : S100000x128.Idx → EReal) (Wr : S128x64.Idx → EReal)
    (B : S1x64.Idx → EReal) (y : S2000x64.Idx) (p : Fin 2000) (q : Fin 64) (hy : y = ix2 p q) (R : Fin 100000)
    (h0 : ∀ k : Fin 64, x0 (ix2 p k) = A (ix2 R k)) (h1 : ∀ k : Fin 128, x1 (ix2 p k) = H (ix2 R k))
    (h2 : x2 = Wr) (h3 : x3 = B) :
    k1_pay1 (F := Ideal) x0 x1 x2 x3 y
      = rowSoftmax (preProjected (at2 A) (at2 H) (at2 Wr) (fun j => B (ix2 (0 : Fin 1) j)) R) q := by
  subst hy h2 h3
  rw [k1_pay1_apply]
  refine congrArg (fun z => rowSoftmax z q) (funext fun j => ?_)
  unfold preProjected mm
  simp only [at2, h0, h1]

/-- The printed index maps over the 50 points of the second call. -/
theorem idx_facts1 : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- WHAT POINT `t` WRITES BACK is block `t` of the softmax of the second layer of every row. -/
theorem flushed1 (c : Dev nD) (t : Fin cfg1.N) :
    (dat1 V c).flushed 4 t = ((cfg1.win 4).blk t).view.read (Elt Ideal) (outArr V c) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x128) hz, View.ld_unit_zero (S := S128x64) hz,
    View.ld_unit_zero (S := S1x64) hz]
  obtain ⟨e40, e41, e00, e01, e10, e11, e20, e21, e30, e31⟩ := idx_facts1 t
  have ht : t.val < 50 := by have := t.isLt; have hN : cfg1.N = 50 := N_1; omega
  funext j
  show k1_pay1 (F := Ideal) (iblk1 V c 0 t) (iblk1 V c 1 t) (iblk1 V c 2 t) (iblk1 V c 3 t) j
    = outArr V c (((cfg1.win 4).blk t).view.emb j)
  have hj0 : (j 0).val < 2000 := (j 0).isLt
  have hj1 : (j 1).val < 64 := (j 1).isLt
  refine (blockval1 (iblk1 V c 0 t) (iblk1 V c 1 t) (iblk1 V c 2 t) (iblk1 V c 3 t)
    (V c main_v26) (V c main_v15) (V c main_arg7) (V c main_v27) j (j 0) (j 1) (eq_ix2 j)
    ⟨t.val * 2000 + (j 0).val, by omega⟩ ?_ ?_ ?_ ?_).trans ?_
  · intro k
    show V c main_v26 (((cfg1.win 0).blk t).view.emb (ix2 (j 0) k)) = V c main_v26 (ix2 _ k)
    refine congrArg (V c main_v26) (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 64 + 1 * k.val = k.val; omega
  · intro k
    show V c main_v15 (((cfg1.win 1).blk t).view.emb (ix2 (j 0) k)) = V c main_v15 (ix2 _ k)
    refine congrArg (V c main_v15) (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 128 + 1 * k.val = k.val; omega
  · funext y
    show V c main_arg7 (((cfg1.win 2).blk t).view.emb y) = V c main_arg7 y
    refine congrArg (V c main_arg7) (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  · funext y
    show V c main_v27 (((cfg1.win 3).blk t).view.emb y) = V c main_v27 y
    refine congrArg (V c main_v27) (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  · have hr : ((cfg1.win 4).blk t).view.emb j (0 : Fin 2) = (⟨t.val * 2000 + (j 0).val, by omega⟩ : Fin 100000) :=
      Fin.ext (show win1_4.index t (0 : Fin 2) * 2000 + 1 * (j 0).val = t.val * 2000 + (j 0).val by omega)
    have hc : ((cfg1.win 4).blk t).view.emb j (1 : Fin 2) = j 1 :=
      Fin.ext (show win1_4.index t (1 : Fin 2) * 64 + 1 * (j 1).val = (j 1).val by omega)
    show _ = rowSoftmax (preProjected (at2 (V c main_v26)) (at2 (V c main_v15)) (at2 (V c main_arg7))
      (fun j => V c main_v27 (ix2 (0 : Fin 1) j)) (((cfg1.win 4).blk t).view.emb j (0 : Fin 2))) (((cfg1.win 4).blk t).view.emb j (1 : Fin 2))
    rw [hr, hc]

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v28).slice (win1_4.rect t)).set ↔ _
  rw [View.set_slice_whole, Rect.mem_set_unit]
  exact Iff.rfl

/-- Every row of the output array lies in the block of the point numbered by the row's quotient by the block height. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := N_1
  refine ⟨⟨(i 0).val / 2000, by omega⟩, flush1_4 _, ?_⟩
  rw [mem_blk1]
  obtain ⟨e40, e41, -⟩ := idx_facts1 ⟨(i 0).val / 2000, by omega⟩
  intro a
  match a with
  | ⟨0, _⟩ =>
    show win1_4.index _ (0 : Fin 2) * 2000 ≤ (i 0).val ∧ (i 0).val < win1_4.index _ (0 : Fin 2) * 2000 + 2000
    rw [e40]; show (i 0).val / 2000 * 2000 ≤ (i 0).val ∧ (i 0).val < (i 0).val / 2000 * 2000 + 2000; omega
  | ⟨1, _⟩ =>
    show win1_4.index _ (1 : Fin 2) * 64 ≤ (i 1).val ∧ (i 1).val < win1_4.index _ (1 : Fin 2) * 64 + 64
    rw [e41]; omega

/-- THE SECOND CALL'S OUTPUT ARRAY after its grid: the softmax of the second layer of every row. -/
theorem final1 (c : Dev nD) : (dat1 V c).arrAt 4 cfg1.N = outArr V c :=
  (dat1 V c).arrAt_eq_of_cover 4 (outArr V c) (fun t _ => flushed1 V c t) cover1

end Cert.KernelIdeal.RegionValue

end
-- ==== Proof.LibSegSumRows.lean ====
/-
  Rows of a table gathered by index, and rows added into a table by index, each read at one entry.

  `x[idx]` on an `[N, C]` table with `E` start words takes, for entry `(e, k)`, row `idx e` of the table (read signed and
  clamped into `[0, N − 1]`) at column `k`.  The accumulating scatter of `E` update rows into an `[N, C]` table adds, at entry
  `(i, k)`, column `k` of every update row `e` whose index word, read signed and NOT clamped, is `i`; an update whose word
  falls outside the table is dropped.  Both are stated for any `N`, `E`, `C` and any word width.
-/
import Idealize.ShloMosaic.PureOps.Ideal
import Idealize.ShloMosaic.Lib.ValueIdx

noncomputable section

namespace SegSumRows

open Idealize.ShloMosaic Idealize.ShloMosaic.ValueIdx

/-- The dimension numbers of `x[idx]` along axis 0 of an `[N, C]` table with start indices `[E, 1]` and result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: column `k` of the row the start word `idx[e, 0]` selects, read signed and clamped into
    `[0, N − 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    -- axis 0: the clamped start word; no batching coordinate, and the axis is collapsed, so no offset coordinate
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not in the start index map, so the start is 0; not a batching axis; the offset coordinate is the column
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show (1 : Fin 2) ∉ ([0] : List (Fin 2)) by decide)]
    have ho : (rowGatherDims N E C wf).offCoord (ix2 e k) 1 = k.val := by
      unfold GatherDims.offCoord
      rw [dif_pos ((GatherDims.mem_sKept _ _).mpr ⟨show (1 : Fin 2) ∉ ([0] : List (Fin 2)) by decide, List.not_mem_nil⟩)]
      rfl
    rw [hs, ho]; omega

/-- The dimension numbers of the scatter of `E` update rows `[E, C]` into an `[N, C]` table by scatter indices `[E, 1]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter

variable {N E C w : Nat} (wf : ScatterDims.WF ⟨2, ![N, C]⟩ ⟨2, ![E, 1]⟩ ⟨2, ![E, C]⟩ [1] [0] [0] 1)

/-- On axis 0 the window of update `(e, k')` starts at row `e`'s index word, read signed. -/
theorem rowScatter_start0 (idx : IVec ⟨2, ![E, 1]⟩ w) (e : Fin E) (k' : Fin C) :
    (rowScatterDims N E C wf).start (ix2 e k') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e k')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not named by the scatter map: the window starts at 0 there. -/
theorem rowScatter_start1 (idx : IVec ⟨2, ![E, 1]⟩ w) (e : Fin E) (k' : Fin C) :
    (rowScatterDims N E C wf).start (ix2 e k') idx 1 = 0 := by
  unfold ScatterDims.start
  rw [dif_neg (show (1 : Fin 2) ∉ ([0] : List (Fin 2)) by decide)]

/-- Axis 0 is an inserted window axis: no window coordinate. -/
theorem rowScatter_window0 (e : Fin E) (k' : Fin C) : (rowScatterDims N E C wf).window (ix2 e k') 0 = 0 := by
  have h0 : (0 : Fin 2) ∉ (rowScatterDims N E C wf).sKept := by
    show (0 : Fin 2) ∉ (List.finRange 2).filter (· ∉ ([0] : List (Fin 2)))
    decide
  unfold ScatterDims.window
  rw [dif_neg h0]

/-- On axis 1 the window coordinate is the update's column. -/
theorem rowScatter_window1 (e : Fin E) (k' : Fin C) : (rowScatterDims N E C wf).window (ix2 e k') 1 = k'.val := by
  have h1 : (1 : Fin 2) ∈ (rowScatterDims N E C wf).sKept := by
    show (1 : Fin 2) ∈ (List.finRange 2).filter (· ∉ ([0] : List (Fin 2)))
    decide
  unfold ScatterDims.window
  rw [dif_pos h1]
  rfl

/-- WHERE AN UPDATE LANDS: update `(e, k')` lands at table entry `(i0, k)` exactly when it is in column `k` and row `e`'s
    index word, read signed, is `i0`. -/
theorem rowScatter_resultIdx?_iff (idx : IVec ⟨2, ![E, 1]⟩ w) (e : Fin E) (k' : Fin C) (i0 : Fin N) (k : Fin C) :
    (rowScatterDims N E C wf).resultIdx? (ix2 e k') idx = some (ix2 i0 k)
      ↔ k' = k ∧ (idx (ix2 e (0 : Fin 1))).toInt = (i0.val : Int) := by
  unfold ScatterDims.resultIdx?
  constructor
  · intro h
    split at h
    · rename_i hin
      have hf := Option.some.inj h
      have h0 : ((rowScatterDims N E C wf).start (ix2 e k') idx 0
          + ((rowScatterDims N E C wf).window (ix2 e k') 0 : Nat)).toNat = i0.val :=
        congrArg (fun f => (f (0 : Fin 2)).val) hf
      have h1 : ((rowScatterDims N E C wf).start (ix2 e k') idx 1
          + ((rowScatterDims N E C wf).window (ix2 e k') 1 : Nat)).toNat = k.val :=
        congrArg (fun f => (f (1 : Fin 2)).val) hf
      have hin0 := (hin 0).1
      rw [rowScatter_start0, rowScatter_window0] at h0 hin0
      rw [rowScatter_start1, rowScatter_window1] at h1
      exact ⟨Fin.ext (by omega), by omega⟩
    · exact absurd h (by simp)
  · rintro ⟨rfl, ht⟩
    have hin : ∀ a : Fin 2, 0 ≤ (rowScatterDims N E C wf).start (ix2 e k') idx a
          + ((rowScatterDims N E C wf).window (ix2 e k') a : Nat)
        ∧ (rowScatterDims N E C wf).start (ix2 e k') idx a + ((rowScatterDims N E C wf).window (ix2 e k') a : Nat)
          < (((⟨2, ![N, C]⟩ : Shape).size a : Nat) : Int) := by
      intro a
      match a with
      | ⟨0, _⟩ =>
        show 0 ≤ (rowScatterDims N E C wf).start (ix2 e k') idx 0 + ((rowScatterDims N E C wf).window (ix2 e k') 0 : Nat)
          ∧ (rowScatterDims N E C wf).start (ix2 e k') idx 0 + ((rowScatterDims N E C wf).window (ix2 e k') 0 : Nat)
            < ((N : Nat) : Int)
        rw [rowScatter_start0, rowScatter_window0, ht]
        have := i0.isLt
        omega
      | ⟨1, _⟩ =>
        show 0 ≤ (rowScatterDims N E C wf).start (ix2 e k') idx 1 + ((rowScatterDims N E C wf).window (ix2 e k') 1 : Nat)
          ∧ (rowScatterDims N E C wf).start (ix2 e k') idx 1 + ((rowScatterDims N E C wf).window (ix2 e k') 1 : Nat)
            < ((C : Nat) : Int)
        rw [rowScatter_start1, rowScatter_window1]
        have := k'.isLt
        omega
    rw [dif_pos hin]
    congr 1
    funext a
    refine Fin.ext ?_
    match a with
    | ⟨0, _⟩ =>
      show ((rowScatterDims N E C wf).start (ix2 e k') idx 0
        + ((rowScatterDims N E C wf).window (ix2 e k') 0 : Nat)).toNat = i0.val
      rw [rowScatter_start0, rowScatter_window0, ht]
      omega
    | ⟨1, _⟩ =>
      show ((rowScatterDims N E C wf).start (ix2 e k') idx 1
        + ((rowScatterDims N E C wf).window (ix2 e k') 1 : Nat)).toNat = k'.val
      rw [rowScatter_start1, rowScatter_window1]
      omega

end RowScatter

/-- THE ACCUMULATING ROW SCATTER READ AT `(i, k)`, on the extended reals: the table's entry plus column `k` of every update
    row whose index word, read signed, is `i`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : Int)), upd (ix2 e k) := by
  unfold Ideal.hostScatterAdd
  congr 1
  -- the updates that land at `(i, k)` are the entries `(e, k)` of the rows `e` whose word is `i`: re-index by the row
  refine Finset.sum_nbij' (fun j => (j 0 : Fin E)) (fun e => ix2 e k) ?_ ?_ ?_ ?_ ?_
  · intro j hj
    obtain ⟨e, k', rfl⟩ : ∃ (e : Fin E) (k' : Fin C), j = ix2 e k' := ⟨j 0, j 1, eq_ix2 j⟩
    rw [Finset.mem_filter] at hj
    exact Finset.mem_filter.mpr ⟨Finset.mem_univ _, ((rowScatter_resultIdx?_iff wf idx e k' i k).mp hj.2).2⟩
  · intro e he
    rw [Finset.mem_filter] at he
    exact Finset.mem_filter.mpr ⟨Finset.mem_univ _, (rowScatter_resultIdx?_iff wf idx e k i k).mpr ⟨rfl, he.2⟩⟩
  · intro j hj
    obtain ⟨e, k', rfl⟩ : ∃ (e : Fin E) (k' : Fin C), j = ix2 e k' := ⟨j 0, j 1, eq_ix2 j⟩
    rw [Finset.mem_filter] at hj
    obtain ⟨rfl, _⟩ := (rowScatter_resultIdx?_iff wf idx e k' i k).mp hj.2
    rfl
  · intro e _
    rfl
  · intro j hj
    obtain ⟨e, k', rfl⟩ : ∃ (e : Fin E) (k' : Fin C), j = ix2 e k' := ⟨j 0, j 1, eq_ix2 j⟩
    rw [Finset.mem_filter] at hj
    obtain ⟨rfl, _⟩ := (rowScatter_resultIdx?_iff wf idx e k' i k).mp hj.2
    rfl

end SegSumRows

end
-- ==== Proof.KernelValue.lean ====
/-
  The idealized kernel's result read at one entry, on the extended reals.

  The result array is the second call's output: row `r`, column `j` is the softmax along row `r` of
  `(neighbour sum of H · W_l2) + H · W_r2 + b_2`, where `H` is the first call's output, the first layer of every row with
  the aggregated node table the host prepared.  The host's aggregates are neighbour sums (the row gather and the
  accumulating row scatter, each read at an entry), its product with `W_l2` is the matrix product entry by entry, and a bias
  laid out as one row is the bias.
-/
import proofs.«418174_j56994216018168_4_alg».proof.Proof.KernelHost
import proofs.«418174_j56994216018168_4_alg».proof.Proof.Region
import proofs.«418174_j56994216018168_4_alg».proof.Proof.LibSegSumRows
import proofs.«418174_j56994216018168_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Cert.KernelIdeal.HostValue Cert.KernelIdeal.RegionValue Cert.SageSpec SegSumRows
open Idealize.ShloMosaic Idealize.ShloMosaic.TcCoe Idealize.ShloMosaic.ValueIdx Idealize.SL.Sem

/-! ## The host's product with `W_l2`, entry by entry -/

theorem lhs_proj_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_proj_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_proj_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_proj_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's `H · W_l2` at `(r, j)`: row `r` of `H` against column `j` of `W_l2`. -/
theorem proj_apply (H : (⟨S100000x128, .f32⟩ : BufTy).Contents (Elt Ideal)) (W : (⟨S128x64, .f32⟩ : BufTy).Contents (Elt Ideal))
    (r : Fin 100000) (j : Fin 64) :
    Host.dotGeneral (F := Ideal) (φ₁ := .f32) (φ₂ := .f32) dot_S100000x128_S128x64_S100000x64_1_0_0_1_n_n (some .fp32) H W (ix2 r j) = mm (at2 H) (at2 W) r j := by
  simp only [Host.dotGeneral]
  rw [Ideal.dotGeneral_apply, ← Equiv.sum_comp (ValueIdx.contrEquiv1 dot_S100000x128_S128x64_S100000x64_1_0_0_1_n_n 128 rfl rfl).symm]
  unfold mm
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r j) ((ValueIdx.contrEquiv1 dot_S100000x128_S128x64_S100000x64_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S100000x128_S128x64_S100000x64_1_0_0_1_n_n.rhsIdx (ix2 r j) ((ValueIdx.contrEquiv1 dot_S100000x128_S128x64_S100000x64_1_0_0_1_n_n 128 rfl rfl).symm k) = ix2 k j := funext fun a => Fin.ext (by
    match a with
    | ⟨0, _⟩ => exact (rhs_proj_0 _ _).trans hk
    | ⟨1, _⟩ => exact rhs_proj_1 _ _)
  rw [el, er]

/-! ## The host's aggregates are neighbour sums -/

/-- The start word of edge `e`'s gather. -/
abbrev srcW (s : (⟨S1600000, .i32⟩ : BufTy).Contents (Elt Ideal)) : Fin 1600000 → BitVec 32 :=
  fun e => srcIxOf (F := Ideal) s (ix2 e (0 : Fin 1))
/-- The index word of edge `e`'s scatter. -/
abbrev dstW (d : (⟨S1600000, .i32⟩ : BufTy).Contents (Elt Ideal)) : Fin 1600000 → BitVec 32 :=
  fun e => dstIxOf (F := Ideal) d (ix2 e (0 : Fin 1))

/-- On the extended reals the host's accumulating scatter is the exact sum, whatever its dimension numbers. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The printed dimension numbers are those of the row scatter and of the row gather, at both widths. -/
theorem scatter128_eq : scatter_S100000x128_S1600000x1_S1600000x128_1_0_0_1
    = rowScatterDims 100000 1600000 128 Facts₀.scatter_S100000x128_S1600000x1_S1600000x128_1_0_0_1_wf := rfl
theorem gather128_eq : gather_S100000x128_S1600000x1_S1600000x128_1_0_n_n_0_1_1128
    = rowGatherDims 100000 1600000 128 Facts₀.gather_S100000x128_S1600000x1_S1600000x128_1_0_n_n_0_1_1128_wf := rfl
theorem scatter64_eq : scatter_S100000x64_S1600000x1_S1600000x64_1_0_0_1
    = rowScatterDims 100000 1600000 64 Facts₀.scatter_S100000x64_S1600000x1_S1600000x64_1_0_0_1_wf := rfl
theorem gather64_eq : gather_S100000x64_S1600000x1_S1600000x64_1_0_n_n_0_1_164
    = rowGatherDims 100000 1600000 64 Facts₀.gather_S100000x64_S1600000x1_S1600000x64_1_0_n_n_0_1_164_wf := rfl

/-- A neighbour sum, written out. -/
theorem nbrSum_def {n ne c : Nat} (hn : 0 < n) (si di : Fin ne → BitVec 32) (h : Fin n → Fin c → EReal) (i : Fin n) (j : Fin c) :
    nbrSum hn si di h i j
      = ∑ e ∈ Finset.univ.filter (fun e : Fin ne => (di e).toInt = (i.val : Int)), h (clampRow n hn (si e)) j := rfl

theorem zero128_apply (i : S100000x128.Idx) :
    broadcastInDim S100000x128 ![] bcast_S_S100000x128 (constant (F := Ideal) S_ .f32 0x00000000#32) i = 0 :=
  Ideal.ofBits_zero_f32
theorem zero64_apply (i : S100000x64.Idx) :
    broadcastInDim S100000x64 ![] bcast_S_S100000x64 (constant (F := Ideal) S_ .f32 0x00000000#32) i = 0 :=
  Ideal.ofBits_zero_f32

theorem agg128_apply (X : (⟨S100000x128, .f32⟩ : BufTy).Contents (Elt Ideal)) (s d : (⟨S1600000, .i32⟩ : BufTy).Contents (Elt Ideal))
    (i : Fin 100000) (k : Fin 128) :
    agg128 (F := Ideal) X s d (ix2 i k) = nbrSum (n := 100000) (by decide) (srcW s) (dstW d) (at2 X) i k := by
  unfold agg128
  rw [scatterAdd_ideal, scatter128_eq, scatterAdd_rows_apply, zero128_apply, zero_add, nbrSum_def]
  refine Finset.sum_congr rfl fun e _ => ?_
  rw [gather128_eq, gather_rows_apply (by decide)]
  rfl

theorem agg64_apply (P : (⟨S100000x64, .f32⟩ : BufTy).Contents (Elt Ideal)) (s d : (⟨S1600000, .i32⟩ : BufTy).Contents (Elt Ideal))
    (i : Fin 100000) (k : Fin 64) :
    agg64 (F := Ideal) P s d (ix2 i k) = nbrSum (n := 100000) (by decide) (srcW s) (dstW d) (at2 P) i k := by
  unfold agg64
  rw [scatterAdd_ideal, scatter64_eq, scatterAdd_rows_apply, zero64_apply, zero_add, nbrSum_def]
  refine Finset.sum_congr rfl fun e _ => ?_
  rw [gather64_eq, gather_rows_apply (by decide)]
  rfl

/-! ## The result, from the launch memory -/

variable (m : (ℓ : Loc nD τ sig) → Buf (Elt Ideal) ℓ) (ρ : Dev nD → PrngReg)

/-- The start words of the gathers, edge by edge, from the launched edge array. -/
abbrev sW (c : Dev nD) : Fin 1600000 → BitVec 32 := srcW (srcOf m c)
/-- The index words of the scatters, edge by edge, from the launched edge array. -/
abbrev dW (c : Dev nD) : Fin 1600000 → BitVec 32 := dstW (dstOf m c)

/-- The hidden table as the kernel computes it: the first layer, the two products added before the bias. -/
def hidK (c : Dev nD) : Fin 100000 → Fin 128 → EReal :=
  hidSumFirst (nbrSum (n := 100000) (by decide) (sW m c) (dW m c) (at2 (m ((c : Thread nD τ).loc main_arg0))))
    (at2 (m ((c : Thread nD τ).loc main_arg0))) (at2 (m ((c : Thread nD τ).loc main_arg2)))
    (at2 (m ((c : Thread nD τ).loc main_arg4))) (at1 (m ((c : Thread nD τ).loc main_arg3)))

/-- The first call's output array is that table. -/
theorem hidArr_eq (c : Dev nD) : at2 (hidArr (V1 m ρ) c) = hidK m c := by
  funext r k
  show hidSumFirst (at2 (V1 m ρ c main_v13)) (at2 (V1 m ρ c main_arg0)) (at2 (V1 m ρ c main_arg2)) (at2 (V1 m ρ c main_arg4))
    (fun j => V1 m ρ c main_v14 (ix2 (0 : Fin 1) j)) r k = _
  rw [V1_v13, V1_arg0, V1_arg2, V1_arg4, V1_v14]
  have ha : at2 (agg128 (F := Ideal) (m ((c : Thread nD τ).loc main_arg0)) (srcOf m c) (dstOf m c))
      = nbrSum (n := 100000) (by decide) (sW m c) (dW m c) (at2 (m ((c : Thread nD τ).loc main_arg0))) :=
    funext fun i => funext fun q => agg128_apply _ _ _ i q
  have hb : (fun j => shapeCast _ (m ((c : Thread nD τ).loc main_arg3)) shapeCasts_S128_S1x128 (ix2 (0 : Fin 1) j))
      = at1 (m ((c : Thread nD τ).loc main_arg3)) := funext fun j => ValueIdx.shapeCast_a_1a_apply _ _ 0 j
  rw [ha, hb]
  rfl

/-- THE KERNEL'S RESULT AT `(r, j)`. -/
theorem result_apply (c : Dev nD) (r : Fin 100000) (j : Fin 64) :
    W4 (F := Ideal) m ρ c (Proc.devRef .tc main_v28) (ix2 r j)
      = rowSoftmax (preProjected
          (nbrSum (n := 100000) (by decide) (sW m c) (dW m c) (mm (hidK m c) (at2 (m ((c : Thread nD τ).loc main_arg5)))))
          (hidK m c) (at2 (m ((c : Thread nD τ).loc main_arg7))) (at1 (m ((c : Thread nD τ).loc main_arg6))) r) j := by
  rw [W4_v28, final1]
  show rowSoftmax (preProjected (at2 (V3 m ρ c main_v26)) (at2 (V3 m ρ c main_v15)) (at2 (V3 m ρ c main_arg7))
    (fun j => V3 m ρ c main_v27 (ix2 (0 : Fin 1) j)) r) j = _
  rw [V3_v26, V3_v15, V3_arg7, V3_v27, final0]
  have hp : at2 (Host.dotGeneral (F := Ideal) (φ₁ := .f32) (φ₂ := .f32) dot_S100000x128_S128x64_S100000x64_1_0_0_1_n_n (some .fp32) (hidArr (V1 m ρ) c)
        (m ((c : Thread nD τ).loc main_arg5))) = mm (hidK m c) (at2 (m ((c : Thread nD τ).loc main_arg5))) := by
    funext i q
    rw [← hidArr_eq m ρ c]
    exact proj_apply _ _ i q
  have ha : at2 (agg64 (F := Ideal) (Host.dotGeneral (F := Ideal) (φ₁ := .f32) (φ₂ := .f32) dot_S100000x128_S128x64_S100000x64_1_0_0_1_n_n (some .fp32) (hidArr (V1 m ρ) c)
        (m ((c : Thread nD τ).loc main_arg5))) (srcOf m c) (dstOf m c))
      = nbrSum (n := 100000) (by decide) (sW m c) (dW m c) (mm (hidK m c) (at2 (m ((c : Thread nD τ).loc main_arg5)))) := by
    funext i q
    rw [← hp]
    exact agg64_apply _ _ _ i q
  have hb : (fun j => shapeCast _ (m ((c : Thread nD τ).loc main_arg6)) shapeCasts_S64_S1x64 (ix2 (0 : Fin 1) j))
      = at1 (m ((c : Thread nD τ).loc main_arg6)) := funext fun j => ValueIdx.shapeCast_a_1a_apply _ _ 0 j
  rw [ha, hidArr_eq m ρ c, hb]

end Cert.KernelIdeal.KValue

end
-- ==== Proof.RefValue.lean ====
/-
  The reference's result read at one entry, on the extended reals.

  Row `r`, column `j` of the reference's result is the softmax along row `r` of the second layer's pre-activation, with the
  neighbour sum of the hidden rows taken BEFORE the product with `W_l2`; the hidden rows are the first layer with the bias
  added to the neighbour term first.  The source and destination words of the edges are what the program computes from the
  edge array: the first row with negative words wrapped by the table's height, and the second row as it is.
-/
import proofs.«418174_j56994216018168_4_alg».proof.Proof.Gen.ReferenceIdeal.Read
import proofs.«418174_j56994216018168_4_alg».proof.Proof.Spec
import proofs.«418174_j56994216018168_4_alg».proof.Proof.LibSegSumRows
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.SageSpec Idealize.ShloMosaic Idealize.ShloMosaic.ValueIdx

/-- The edges' source words as the program prepares them for its gathers. -/
abbrev srcW (x1 : (⟨S2x1600000, .i32⟩ : BufTy).Contents (Elt Ideal)) : Fin 1600000 → BitVec 32 :=
  fun e => Read.val_main_v9 (F := Ideal) x1 (ix2 e (0 : Fin 1))
/-- The edges' destination words as the program prepares them for its scatters. -/
abbrev dstW (x1 : (⟨S2x1600000, .i32⟩ : BufTy).Contents (Elt Ideal)) : Fin 1600000 → BitVec 32 :=
  fun e => Read.val_main_v12 (F := Ideal) x1 (ix2 e (0 : Fin 1))

/-- The hidden rows as the reference computes them. -/
def hid (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : Fin 100000 → Fin 128 → EReal :=
  hidBiasFirst (nbrSum (n := 100000) (by decide) (srcW x1) (dstW x1) (at2 x0)) (at2 x0) (at2 x2) (at2 x4) (at1 x3)

/-! ### The generated index functions at explicit coordinates -/

private theorem lidx14 (r : Fin 100000) (c k : Fin 128) : Read.lidx_main_v14 (ix2 r c) k = ix2 r k :=
  funext fun a => Fin.ext (by match a with | ⟨0, _⟩ => rfl | ⟨1, _⟩ => rfl)
private theorem ridx14 (r : Fin 100000) (c k : Fin 128) : Read.ridx_main_v14 (ix2 r c) k = ix2 k c :=
  funext fun a => Fin.ext (by match a with | ⟨0, _⟩ => rfl | ⟨1, _⟩ => rfl)
private theorem lidx18 (r : Fin 100000) (c k : Fin 128) : Read.lidx_main_v18 (ix2 r c) k = ix2 r k :=
  funext fun a => Fin.ext (by match a with | ⟨0, _⟩ => rfl | ⟨1, _⟩ => rfl)
private theorem ridx18 (r : Fin 100000) (c k : Fin 128) : Read.ridx_main_v18 (ix2 r c) k = ix2 k c :=
  funext fun a => Fin.ext (by match a with | ⟨0, _⟩ => rfl | ⟨1, _⟩ => rfl)
private theorem lidx31 (r : Fin 100000) (j : Fin 64) (k : Fin 128) : Read.lidx_main_v31 (ix2 r j) k = ix2 r k :=
  funext fun a => Fin.ext (by match a with | ⟨0, _⟩ => rfl | ⟨1, _⟩ => rfl)
private theorem ridx31 (r : Fin 100000) (j : Fin 64) (k : Fin 128) : Read.ridx_main_v31 (ix2 r j) k = ix2 k j :=
  funext fun a => Fin.ext (by match a with | ⟨0, _⟩ => rfl | ⟨1, _⟩ => rfl)
private theorem lidx35 (r : Fin 100000) (j : Fin 64) (k : Fin 128) : Read.lidx_main_v35 (ix2 r j) k = ix2 r k :=
  funext fun a => Fin.ext (by match a with | ⟨0, _⟩ => rfl | ⟨1, _⟩ => rfl)
private theorem ridx35 (r : Fin 100000) (j : Fin 64) (k : Fin 128) : Read.ridx_main_v35 (ix2 r j) k = ix2 k j :=
  funext fun a => Fin.ext (by match a with | ⟨0, _⟩ => rfl | ⟨1, _⟩ => rfl)
private theorem idx16 (r : Fin 100000) (c : Fin 128) : Read.idx_main_v16 (ix2 r c) = ix2 (0 : Fin 1) c :=
  funext fun a => Fin.ext (by match a with | ⟨0, _⟩ => rfl | ⟨1, _⟩ => rfl)
private theorem idx15 (c : Fin 128) : Read.idx_main_v15 (ix2 (0 : Fin 1) c) = ix1 c :=
  funext fun a => Fin.ext (by match a with | ⟨0, _⟩ => rfl)
private theorem idx33 (r : Fin 100000) (j : Fin 64) : Read.idx_main_v33 (ix2 r j) = ix2 (0 : Fin 1) j :=
  funext fun a => Fin.ext (by match a with | ⟨0, _⟩ => rfl | ⟨1, _⟩ => rfl)
private theorem idx32 (j : Fin 64) : Read.idx_main_v32 (ix2 (0 : Fin 1) j) = ix1 j :=
  funext fun a => Fin.ext (by match a with | ⟨0, _⟩ => rfl)
private theorem idx41 (r : Fin 100000) (j : Fin 64) : Read.idx_main_v41 (ix2 r j) = ix2 r (0 : Fin 1) :=
  funext fun a => Fin.ext (by match a with | ⟨0, _⟩ => rfl | ⟨1, _⟩ => rfl)
private theorem idx40 (r : Fin 100000) : Read.idx_main_v40 (ix2 r (0 : Fin 1)) = ix1 r :=
  funext fun a => Fin.ext (by match a with | ⟨0, _⟩ => rfl)
private theorem idx46 (r : Fin 100000) (j : Fin 64) : Read.idx_main_v46 (ix2 r j) = ix2 r (0 : Fin 1) :=
  funext fun a => Fin.ext (by match a with | ⟨0, _⟩ => rfl | ⟨1, _⟩ => rfl)
private theorem idx45 (r : Fin 100000) : Read.idx_main_v45 (ix2 r (0 : Fin 1)) = ix1 r :=
  funext fun a => Fin.ext (by match a with | ⟨0, _⟩ => rfl)
private theorem idx44 (r : Fin 100000) (k : Fin 64) : Read.idx_main_v44 (ix1 r) k = ix2 r k :=
  funext fun a => Fin.ext (by match a with | ⟨0, _⟩ => rfl | ⟨1, _⟩ => rfl)

/-! ### Definitions restated as equations over variables -/

private theorem hostScatterAdd_eq {s si u : Shape} {w : Nat} (d : ScatterDims s si u) (x : FVec Ideal s .f32) (idx : IVec si w)
    (upd : FVec Ideal u .f32) : Host.scatterAdd (F := Ideal) (φ := .f32) d x idx upd = Ideal.hostScatterAdd d x idx upd := rfl
private theorem nbrSum_eq {n ne c : Nat} (hn : 0 < n) (si di : Fin ne → BitVec 32) (h : Fin n → Fin c → EReal) (i : Fin n) (j : Fin c) :
    nbrSum hn si di h i j
      = ∑ e ∈ Finset.univ.filter (fun e : Fin ne => (di e).toInt = (i.val : Int)), h (clampRow n hn (si e)) j := rfl
private theorem rowSoftmax_eq {c : Nat} (z : Fin c → EReal) (j : Fin c) :
    rowSoftmax z j = Ideal.div (Ideal.exp (z j - rowMax z)) (∑ j' : Fin c, Ideal.exp (z j' - rowMax z)) := rfl
private theorem mm_eq {n k c : Nat} (A : Fin n → Fin k → EReal) (W : Fin k → Fin c → EReal) (r : Fin n) (j : Fin c) :
    mm A W r j = ∑ q, A r q * W q j := rfl

/-! ### Rows gathered by the source words, rows added by the destination words -/

/-- The program's gather of a table by the source words, at (e, k): column k of the row the source word of e selects. -/
private theorem gather_src_apply (x1 : (⟨S2x1600000, .i32⟩ : BufTy).Contents (Elt Ideal))
    (T : (⟨S100000x128, .f32⟩ : BufTy).Contents (Elt Ideal)) (e : Fin 1600000) (k : Fin 128) :
    Host.gather gather_S100000x128_S1600000x1_S1600000x128_1_0_n_n_0_1_1128 T (Read.val_main_v9 (F := Ideal) x1) (ix2 e k)
      = T (ix2 (clampRow 100000 (by decide) (srcW x1 e)) k) := by
  have hd : gather_S100000x128_S1600000x1_S1600000x128_1_0_n_n_0_1_1128
      = SegSumRows.rowGatherDims 100000 1600000 128 gather_S100000x128_S1600000x1_S1600000x128_1_0_n_n_0_1_1128_wf := rfl
  rw [hd]
  exact SegSumRows.gather_rows_apply (N := 100000) (E := 1600000) (C := 128) (by decide)
    gather_S100000x128_S1600000x1_S1600000x128_1_0_n_n_0_1_1128_wf T (Read.val_main_v9 (F := Ideal) x1) e k

/-- The program's accumulating scatter into the zero table by the destination words, at (i, k): the sum of column k of
    the update rows whose destination word is i. -/
private theorem scatter_dst_apply (x1 : (⟨S2x1600000, .i32⟩ : BufTy).Contents (Elt Ideal))
    (V : (⟨S1600000x128, .f32⟩ : BufTy).Contents (Elt Ideal)) (i : Fin 100000) (k : Fin 128) :
    Host.scatterAdd (F := Ideal) (φ := .f32) scatter_S100000x128_S1600000x1_S1600000x128_1_0_0_1 (Read.val_main_v11 (F := Ideal))
        (Read.val_main_v12 (F := Ideal) x1) V (ix2 i k)
      = ∑ e ∈ Finset.univ.filter (fun e : Fin 1600000 => (dstW x1 e).toInt = (i.val : Int)), V (ix2 e k) := by
  have h := SegSumRows.scatterAdd_rows_apply (N := 100000) (E := 1600000) (C := 128)
    scatter_S100000x128_S1600000x1_S1600000x128_1_0_0_1_wf (Read.val_main_v11 (F := Ideal))
    (Read.val_main_v12 (F := Ideal) x1) V i k
  have hz : Read.val_main_v11 (F := Ideal) (ix2 i k) = 0 := by
    rw [Read.val_main_v11_apply, Read.val_main_cst_apply]; exact Ideal.ofBits_zero_f32
  rw [hz, zero_add] at h
  have hd : scatter_S100000x128_S1600000x1_S1600000x128_1_0_0_1
      = SegSumRows.rowScatterDims 100000 1600000 128 scatter_S100000x128_S1600000x1_S1600000x128_1_0_0_1_wf := rfl
  rw [hostScatterAdd_eq, hd]
  exact h

/-! ### The program's operations, one stage at a time, each at explicit coordinates -/

section Stages

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))

/-- The first layer's neighbour sum of the input rows. -/
private theorem v13_apply (i : Fin 100000) (k : Fin 128) :
    Read.val_main_v13 (F := Ideal) x0 x1 (ix2 i k) = nbrSum (n := 100000) (by decide) (srcW x1) (dstW x1) (at2 x0) i k := by
  have h13 : Read.val_main_v13 (F := Ideal) x0 x1
      = Host.scatterAdd (F := Ideal) (φ := .f32) scatter_S100000x128_S1600000x1_S1600000x128_1_0_0_1 (Read.val_main_v11 (F := Ideal))
          (Read.val_main_v12 (F := Ideal) x1) (Read.val_main_v10 (F := Ideal) x0 x1) := rfl
  rw [h13, scatter_dst_apply, nbrSum_eq]
  refine Finset.sum_congr rfl fun e _ => ?_
  exact gather_src_apply x1 x0 e k

/-- The neighbour sum times the first left weight. -/
private theorem v14_apply (r : Fin 100000) (c : Fin 128) :
    Read.val_main_v14 (F := Ideal) x0 x1 x2 (ix2 r c) = mm (nbrSum (n := 100000) (by decide) (srcW x1) (dstW x1) (at2 x0)) (at2 x2) r c := by
  rw [Read.val_main_v14_apply]
  rw [mm_eq]
  refine Finset.sum_congr rfl fun k _ => ?_
  rw [lidx14, ridx14, v13_apply]

/-- The first bias, the same in every row. -/
private theorem v16_apply (r : Fin 100000) (c : Fin 128) : Read.val_main_v16 (F := Ideal) x3 (ix2 r c) = at1 x3 c := by
  rw [Read.val_main_v16_apply, idx16, Read.val_main_v15_apply, idx15]

/-- The input rows times the first right weight. -/
private theorem v18_apply (r : Fin 100000) (c : Fin 128) :
    Read.val_main_v18 (F := Ideal) x0 x4 (ix2 r c) = mm (at2 x0) (at2 x4) r c := by
  rw [Read.val_main_v18_apply]
  rw [mm_eq]
  refine Finset.sum_congr rfl fun k _ => ?_
  rw [lidx18, ridx18]

/-- The table the first layer's maximum is taken against is zero. -/
private theorem relu0_apply (i : S100000x128.Idx) : Read.val_main_call0_v0 (F := Ideal) i = 0 := by
  rw [Read.val_main_call0_v0_apply, Read.val_main_call0_cst_apply]; exact Ideal.ofBits_zero_f32

/-- The hidden rows. -/
private theorem v20_apply (r : Fin 100000) (c : Fin 128) :
    Read.val_main_v20 (F := Ideal) x0 x1 x2 x3 x4 (ix2 r c) = hid x0 x1 x2 x3 x4 r c := by
  rw [Read.val_main_v20_apply, Read.val_main_v19_apply, Read.val_main_v17_apply, v14_apply, v16_apply, v18_apply, relu0_apply]
  rfl

/-- The hidden rows gathered by the source words. -/
private theorem v27_apply (e : Fin 1600000) (k : Fin 128) :
    Read.val_main_v27 (F := Ideal) x0 x1 x2 x3 x4 (ix2 e k) = hid x0 x1 x2 x3 x4 (clampRow 100000 (by decide) (srcW x1 e)) k := by
  have h27 : Read.val_main_v27 (F := Ideal) x0 x1 x2 x3 x4
      = Host.gather gather_S100000x128_S1600000x1_S1600000x128_1_0_n_n_0_1_1128 (Read.val_main_v20 (F := Ideal) x0 x1 x2 x3 x4)
          (Read.val_main_v9 (F := Ideal) x1) := rfl
  rw [h27, gather_src_apply, v20_apply]

/-- The second layer's neighbour sum of the hidden rows. -/
private theorem v30_apply (i : Fin 100000) (k : Fin 128) :
    Read.val_main_v30 (F := Ideal) x0 x1 x2 x3 x4 (ix2 i k) = nbrSum (n := 100000) (by decide) (srcW x1) (dstW x1) (hid x0 x1 x2 x3 x4) i k := by
  have h30 : Read.val_main_v30 (F := Ideal) x0 x1 x2 x3 x4
      = Host.scatterAdd (F := Ideal) (φ := .f32) scatter_S100000x128_S1600000x1_S1600000x128_1_0_0_1 (Read.val_main_v11 (F := Ideal))
          (Read.val_main_v12 (F := Ideal) x1) (Read.val_main_v27 (F := Ideal) x0 x1 x2 x3 x4) := rfl
  rw [h30, scatter_dst_apply, nbrSum_eq]
  refine Finset.sum_congr rfl fun e _ => ?_
  exact v27_apply x0 x1 x2 x3 x4 e k

/-- The neighbour sum times the second left weight. -/
private theorem v31_apply (r : Fin 100000) (j : Fin 64) :
    Read.val_main_v31 (F := Ideal) x0 x1 x2 x3 x4 x5 (ix2 r j) = mm (nbrSum (n := 100000) (by decide) (srcW x1) (dstW x1) (hid x0 x1 x2 x3 x4)) (at2 x5) r j := by
  rw [Read.val_main_v31_apply]
  rw [mm_eq]
  refine Finset.sum_congr rfl fun k _ => ?_
  rw [lidx31, ridx31, v30_apply]

/-- The second bias, the same in every row. -/
private theorem v33_apply (r : Fin 100000) (j : Fin 64) : Read.val_main_v33 (F := Ideal) x6 (ix2 r j) = at1 x6 j := by
  rw [Read.val_main_v33_apply, idx33, Read.val_main_v32_apply, idx32]

/-- The hidden rows times the second right weight. -/
private theorem v35_apply (r : Fin 100000) (j : Fin 64) :
    Read.val_main_v35 (F := Ideal) x0 x1 x2 x3 x4 x7 (ix2 r j) = mm (hid x0 x1 x2 x3 x4) (at2 x7) r j := by
  rw [Read.val_main_v35_apply]
  rw [mm_eq]
  refine Finset.sum_congr rfl fun k _ => ?_
  rw [lidx35, ridx35, v20_apply]

/-- The second layer's pre-activation. -/
private abbrev preAct : Fin 100000 → Fin 64 → EReal :=
  preAggregated (nbrSum (n := 100000) (by decide) (srcW x1) (dstW x1) (hid x0 x1 x2 x3 x4)) (hid x0 x1 x2 x3 x4) (at2 x5) (at2 x7) (at1 x6)

private theorem v36_apply (r : Fin 100000) (j : Fin 64) :
    Read.val_main_v36 (F := Ideal) x0 x1 x2 x3 x4 x5 x6 x7 (ix2 r j) = preAct x0 x1 x2 x3 x4 x5 x6 x7 r j := by
  rw [Read.val_main_v36_apply, Read.val_main_v34_apply, v31_apply, v33_apply, v35_apply]
  rfl

/-- A row index with the column put back is the pair of the two. -/
private theorem lift_row (h : S100000x64.Reduces [1] S100000) (r : Fin 100000) (k : Fin (S100000x64.size 1)) :
    h.lift (ix1 r) k = ix2 r (⟨k.val, k.isLt⟩ : Fin 64) := by
  funext c; apply Fin.ext
  fin_cases c <;> rfl

/-- The program's fold of the maximum along a row of any table, from the word of minus infinity. -/
private theorem rowFold_apply (X : (⟨S100000x64, .f32⟩ : BufTy).Contents (Elt Ideal)) (r : Fin 100000) :
    Host.reduce (FloatOps.maximumf (F := Ideal) (φ := .f32)) X (Read.val_main_cst_4 (F := Ideal))
        reducesTo_S100000x64_S100000_d1 h_S_ (ix1 r)
      = (Finset.univ : Finset (Fin 64)).fold max negInf (fun k => X (ix2 r k)) := by
  have h : S100000x64.Reduces [1] S100000 := by decide
  rw [Host.reduce_eq_fold_single (FloatOps.maximumf (F := Ideal) (φ := .f32)) X _ _ h _]
  have hf : (X ∘ h.lift (ix1 r)) = fun k : Fin 64 => X (ix2 r k) := funext fun k => congrArg X (lift_row h r k)
  exact congrArg (fun f => Finset.fold max negInf f (Finset.univ : Finset (Fin 64))) hf

/-- The row maximum the program folds from the word of minus infinity. -/
private theorem v37_apply (r : Fin 100000) :
    Read.val_main_v37 (F := Ideal) x0 x1 x2 x3 x4 x5 x6 x7 (ix1 r)
      = (Finset.univ : Finset (Fin 64)).fold max negInf (preAct x0 x1 x2 x3 x4 x5 x6 x7 r) := by
  have h37 : Read.val_main_v37 (F := Ideal) x0 x1 x2 x3 x4 x5 x6 x7
      = Host.reduce (FloatOps.maximumf (F := Ideal) (φ := .f32)) (Read.val_main_v36 (F := Ideal) x0 x1 x2 x3 x4 x5 x6 x7)
          (Read.val_main_cst_4 (F := Ideal)) reducesTo_S100000x64_S100000_d1 h_S_ := rfl
  have hf : (fun k : Fin 64 => Read.val_main_v36 (F := Ideal) x0 x1 x2 x3 x4 x5 x6 x7 (ix2 r k)) = preAct x0 x1 x2 x3 x4 x5 x6 x7 r :=
    funext fun k => v36_apply x0 x1 x2 x3 x4 x5 x6 x7 r k
  rw [h37, rowFold_apply, hf]

/-- The maximum the softmax subtracts. -/
private theorem v39_apply (r : Fin 100000) :
    Read.val_main_v39 (F := Ideal) x0 x1 x2 x3 x4 x5 x6 x7 (ix1 r) = rowMax (preAct x0 x1 x2 x3 x4 x5 x6 x7 r) := by
  rw [Read.val_main_v39_apply, v37_apply, Read.val_main_v38_apply, Read.val_main_cst_5_apply]
  rfl

private theorem v41_apply (r : Fin 100000) (j : Fin 64) :
    Read.val_main_v41 (F := Ideal) x0 x1 x2 x3 x4 x5 x6 x7 (ix2 r j) = rowMax (preAct x0 x1 x2 x3 x4 x5 x6 x7 r) := by
  rw [Read.val_main_v41_apply, idx41, Read.val_main_v40_apply, idx40, v39_apply]

/-- The exponential of the shifted pre-activation. -/
private theorem v43_apply (r : Fin 100000) (j : Fin 64) :
    Read.val_main_v43 (F := Ideal) x0 x1 x2 x3 x4 x5 x6 x7 (ix2 r j) = Ideal.exp (preAct x0 x1 x2 x3 x4 x5 x6 x7 r j - rowMax (preAct x0 x1 x2 x3 x4 x5 x6 x7 r)) := by
  rw [Read.val_main_v43_apply, Read.val_main_v42_apply, v36_apply, v41_apply, Ideal.hostUnary_exp_def, Ideal.subf_def]

/-- The row sum of the exponentials. -/
private theorem v44_apply (r : Fin 100000) :
    Read.val_main_v44 (F := Ideal) x0 x1 x2 x3 x4 x5 x6 x7 (ix1 r) = ∑ k : Fin 64, Ideal.exp (preAct x0 x1 x2 x3 x4 x5 x6 x7 r k - rowMax (preAct x0 x1 x2 x3 x4 x5 x6 x7 r)) := by
  rw [Read.val_main_v44_apply, Read.val_main_cst_6_apply]
  have hz : (FloatOps.ofBits .f32 0x00000000#32 : Ideal .f32) = 0 := Ideal.ofBits_zero_f32
  rw [hz, zero_add]
  refine Finset.sum_congr rfl fun k _ => ?_
  rw [idx44, v43_apply]

private theorem v46_apply (r : Fin 100000) (j : Fin 64) :
    Read.val_main_v46 (F := Ideal) x0 x1 x2 x3 x4 x5 x6 x7 (ix2 r j) = ∑ k : Fin 64, Ideal.exp (preAct x0 x1 x2 x3 x4 x5 x6 x7 r k - rowMax (preAct x0 x1 x2 x3 x4 x5 x6 x7 r)) := by
  rw [Read.val_main_v46_apply, idx46, Read.val_main_v45_apply, idx45, v44_apply]

end Stages

/-- THE REFERENCE'S RESULT AT `(r, j)`. -/
theorem result_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal))
    (r : Fin 100000) (j : Fin 64) :
    Read.val_main_v47 (F := Ideal) x0 x1 x2 x3 x4 x5 x6 x7 (ix2 r j)
      = rowSoftmax (preAggregated (nbrSum (n := 100000) (by decide) (srcW x1) (dstW x1) (hid x0 x1 x2 x3 x4))
          (hid x0 x1 x2 x3 x4) (at2 x5) (at2 x7) (at1 x6) r) j := by
  rw [Read.val_main_v47_apply, v43_apply, v46_apply, Ideal.hostDivf_def, rowSoftmax_eq]

end Cert.ReferenceIdeal.RefValue

end
-- ==== Proof.Linear.lean ====
/-
  Why the two arrangements of the second layer agree: on FINITE numbers a product distributes over a finite sum.

  On the extended reals `(a + b) · w = a · w + b · w` fails at the infinities.  A number is called real here when it is the
  image of a real number; sums, products and maxima of real numbers are real, and for real summands and a real factor the
  product does distribute over a finite sum.  Hence, for a finite table `H` and a finite matrix `W`, the neighbour sum of the
  rows of `H · W` is the neighbour sum of the rows of `H`, times `W`: exchange the two finite sums.
-/
import proofs.«418174_j56994216018168_4_alg».proof.Proof.Spec

noncomputable section

namespace Cert.SageSpec

/-- The image of a real number: neither infinity. -/
def IsReal (a : EReal) : Prop := ∃ r : ℝ, a = (r : EReal)

theorem IsReal.zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases le_total a b with h | h
  · rw [max_eq_right h]; exact hb
  · rw [max_eq_left h]; exact ha

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- For real summands and a real factor the product distributes over a finite sum. -/
theorem sum_mul_of_isReal {ι : Type} (s : Finset ι) (f : ι → EReal) (w : EReal) (hf : ∀ i ∈ s, IsReal (f i)) (hw : IsReal w) :
    (∑ i ∈ s, f i) * w = ∑ i ∈ s, f i * w := by
  classical
  induction s using Finset.induction_on with
  | empty => simp
  | insert a s ha ih =>
    rw [Finset.sum_insert ha, Finset.sum_insert ha, ← ih (fun i hi => hf i (Finset.mem_insert_of_mem hi))]
    obtain ⟨x, hx⟩ := hf a (Finset.mem_insert_self a s)
    obtain ⟨y, hy⟩ := IsReal.sum s f (fun i hi => hf i (Finset.mem_insert_of_mem hi))
    obtain ⟨z, rfl⟩ := hw
    rw [hx, hy, ← EReal.coe_add, ← EReal.coe_mul, ← EReal.coe_mul, ← EReal.coe_mul, ← EReal.coe_add, add_mul]

/-- Entries of a product of real matrices are real. -/
theorem mm_isReal {n k c : Nat} (A : Fin n → Fin k → EReal) (W : Fin k → Fin c → EReal) (hA : ∀ r q, IsReal (A r q))
    (hW : ∀ q j, IsReal (W q j)) (r : Fin n) (j : Fin c) : IsReal (mm A W r j) :=
  IsReal.sum _ _ fun q _ => (hA r q).mul (hW q j)

/-- Entries of the neighbour sum of a real table are real. -/
theorem nbrSum_isReal {n ne c : Nat} (hn : 0 < n) (si di : Fin ne → BitVec 32) (h : Fin n → Fin c → EReal)
    (hh : ∀ r j, IsReal (h r j)) (i : Fin n) (j : Fin c) : IsReal (nbrSum hn si di h i j) :=
  IsReal.sum _ _ fun e _ => hh _ j

/-- The first layer of real inputs is real. -/
theorem hidSumFirst_isReal {n k c : Nat} (A X : Fin n → Fin k → EReal) (Wl Wr : Fin k → Fin c → EReal) (b : Fin c → EReal)
    (hA : ∀ r q, IsReal (A r q)) (hX : ∀ r q, IsReal (X r q)) (hWl : ∀ q j, IsReal (Wl q j)) (hWr : ∀ q j, IsReal (Wr q j))
    (hb : ∀ j, IsReal (b j)) (r : Fin n) (j : Fin c) : IsReal (hidSumFirst A X Wl Wr b r j) :=
  (((mm_isReal A Wl hA hWl r j).add (mm_isReal X Wr hX hWr r j)).add (hb j)).max IsReal.zero

/-- PROJECTING AND NEIGHBOUR-SUMMING COMMUTE on real tables: the neighbour sum of the rows of `H`, times `W`, is the
    neighbour sum of the rows of `H · W`. -/
theorem mm_nbrSum {n ne k c : Nat} (hn : 0 < n) (si di : Fin ne → BitVec 32) (H : Fin n → Fin k → EReal)
    (W : Fin k → Fin c → EReal) (hH : ∀ r q, IsReal (H r q)) (hW : ∀ q j, IsReal (W q j)) :
    mm (nbrSum hn si di H) W = nbrSum hn si di (mm H W) := by
  funext i j
  unfold mm nbrSum
  calc ∑ q, (∑ e ∈ Finset.univ.filter (fun e : Fin ne => (di e).toInt = (i.val : Int)), H (clampRow n hn (si e)) q) * W q j
      = ∑ q, ∑ e ∈ Finset.univ.filter (fun e : Fin ne => (di e).toInt = (i.val : Int)), H (clampRow n hn (si e)) q * W q j :=
        Finset.sum_congr rfl fun q _ => sum_mul_of_isReal _ _ _ (fun e _ => hH _ q) (hW q j)
    _ = ∑ e ∈ Finset.univ.filter (fun e : Fin ne => (di e).toInt = (i.val : Int)), ∑ q, H (clampRow n hn (si e)) q * W q j :=
        Finset.sum_comm

/-- The two second layers agree on a real hidden table and a real `W_l`. -/
theorem preProjected_eq_preAggregated {n ne k c : Nat} (hn : 0 < n) (si di : Fin ne → BitVec 32) (H : Fin n → Fin k → EReal)
    (Wl Wr : Fin k → Fin c → EReal) (b : Fin c → EReal) (hH : ∀ r q, IsReal (H r q)) (hWl : ∀ q j, IsReal (Wl q j)) :
    preProjected (nbrSum hn si di (mm H Wl)) H Wr b = preAggregated (nbrSum hn si di H) H Wl Wr b := by
  funext r j
  unfold preProjected preAggregated
  rw [mm_nbrSum hn si di H Wl hH hWl, add_right_comm]

end Cert.SageSpec

end
-- ==== Proof.Finite.lean ====
/-
  The precondition, read: every entry of every float input is a real number.

  The printed predicate is the conjunction, over the seven float inputs, of "every entry's absolute value is below the
  value of the word 0x7F800000", which on the extended reals is `+∞`.  An extended real whose absolute value is below `+∞`
  is neither infinity, hence the image of a real number.
-/
import proofs.«418174_j56994216018168_4_alg».proof.Pre_finite_inputs
import proofs.«418174_j56994216018168_4_alg».proof.Proof.Linear
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Cert.SageSpec Idealize.ShloMosaic

/-- The scalar shape has one index. -/
instance : Subsingleton S_.Idx := ⟨fun _ _ => funext fun d => d.elim0⟩

/-- The word 0x7F800000 denotes `+∞`. -/
theorem ofBits_inf : Ideal.ofBits .f32 0x7F800000#32 = ⊤ := by simp [Ideal.ofBits, Ideal.ieee]

/-- An extended real whose absolute value `max a (−a)` is below `+∞` is neither infinity: it is a real number. -/
theorem isReal_of_abs_lt_top (a : EReal) (h : max a (-a) < ⊤) : IsReal a := by
  induction a using EReal.rec with
  | bot => simp at h
  | coe r => exact ⟨r, rfl⟩
  | top => simp at h

/-- One entry: where the comparison `|a| < value of 0x7F800000` answers 1, `a` is real. -/
theorem isReal_of_cmp (a : Ideal .f32)
    (h : FloatOps.cmpf .olt (FloatOps.hostAbsf a) (FloatOps.ofBits (F := Ideal) .f32 0x7F800000#32) = 1#1) : IsReal a := by
  have h' : BitVec.ofBool (decide (max (a : EReal) (-(a : EReal)) < Ideal.ofBits .f32 0x7F800000#32)) = 1#1 := h
  rw [ofBits_inf] at h'
  have hlt : max (a : EReal) (-(a : EReal)) < ⊤ := by
    by_contra hn
    rw [decide_eq_false hn] at h'
    exact absurd h' (by decide)
  exact isReal_of_abs_lt_top a hlt

/-- One input: where the conjunction over all entries of `|x| < +∞` is 1, every entry of `x` is real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ValueIdx.ix0 = 1#1) (i : s.Idx) : IsReal (x i) :=
  isReal_of_cmp (x i) (Host.reduce_andi_all _ _ hr hu ValueIdx.ix0 h i)

/-- Where the precondition holds, every float input's every entry is real. -/
theorem real_of_pre [Cert.Pre_finite_inputs.Facts] (x0 : FVec Ideal S100000x128 .f32) (x1 : IVec S2x1600000 32)
    (x2 : FVec Ideal S128x128 .f32) (x3 : FVec Ideal S128 .f32) (x4 : FVec Ideal S128x128 .f32) (x5 : FVec Ideal S128x64 .f32)
    (x6 : FVec Ideal S64 .f32) (x7 : FVec Ideal S128x64 .f32)
    (h : fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  have h0 := congrFun h ValueIdx.ix0
  dsimp only [fn, fn_part1] at h0
  simp only [andi, IntOp.andi_eq_one] at h0
  obtain ⟨⟨⟨⟨⟨⟨e0, e2⟩, e3⟩, e4⟩, e5⟩, e6⟩, e7⟩ := h0
  exact ⟨all_real x0 _ _ _ e0, all_real x2 _ _ _ e2, all_real x3 _ _ _ e3, all_real x4 _ _ _ e4, all_real x5 _ _ _ e5,
    all_real x6 _ _ _ e6, all_real x7 _ _ _ e7⟩

end Cert.Pre_finite_inputs.Finite

end
-- ==== Proof.Bridge.lean ====
/-
  The two results are one array.

  At every entry the reference's result is the softmax of a row of `(neighbour sum of H) · W_l2 + b_2 + H · W_r2` and the
  kernel's that of `(neighbour sum of H · W_l2) + H · W_r2 + b_2`, with the same edge words (both programs prepare them by the
  same operations from the same edge array) and the same hidden table `H` up to the order of three summands.  Under the
  precondition every float input is real, so `H` is real, and then projecting and neighbour-summing commute: the two
  pre-activations are one function, and so are their softmaxes.
-/
import proofs.«418174_j56994216018168_4_alg».proof.Defs
import proofs.«418174_j56994216018168_4_alg».proof.Proof.Gen.Pre_finite_inputs
import proofs.«418174_j56994216018168_4_alg».proof.Proof.KernelValue
import proofs.«418174_j56994216018168_4_alg».proof.Proof.RefValue
import proofs.«418174_j56994216018168_4_alg».proof.Proof.Linear
import proofs.«418174_j56994216018168_4_alg».proof.Proof.Finite

set_option maxRecDepth 16384

noncomputable section

namespace Cert.Proof.Bridge

open Cert.SageSpec Idealize.ShloMosaic Idealize.ShloMosaic.TcCoe Idealize.ShloMosaic.ValueIdx Idealize.SL.Sem

/-- The edge words the reference prepares are the edge words the kernel's host code prepares. -/
theorem srcW_eq (E : (⟨Cert.ReferenceIdeal.S2x1600000, .i32⟩ : BufTy).Contents (Elt Ideal)) :
    Cert.ReferenceIdeal.RefValue.srcW E = Cert.KernelIdeal.KValue.srcW (Cert.KernelIdeal.HostValue.srcVec (F := Ideal) E) := rfl
theorem dstW_eq (E : (⟨Cert.ReferenceIdeal.S2x1600000, .i32⟩ : BufTy).Contents (Elt Ideal)) :
    Cert.ReferenceIdeal.RefValue.dstW E = Cert.KernelIdeal.KValue.dstW (Cert.KernelIdeal.HostValue.dstVec (F := Ideal) E) := rfl

/-- THE RESULTS AGREE: where the precondition holds and the two memories agree on the arguments, the reference run's result
    term is the kernel's result array at the last boundary. -/
theorem results_agree
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v47 (F := Ideal) m' c
      = Cert.KernelIdeal.Gen.W4 (F := Ideal) m ρ c (Proc.devRef .tc Cert.KernelIdeal.main_v28) := by
  obtain ⟨r0, r2, r3, r4, r5, r6, r7⟩ := Cert.Pre_finite_inputs.Finite.real_of_pre _ _ _ _ _ _ _ _ (hpre c)
  funext i
  obtain ⟨r, j, rfl⟩ : ∃ (r : Fin 100000) (j : Fin 64), i = ix2 r j := ⟨i 0, i 1, eq_ix2 i⟩
  rw [Cert.ReferenceIdeal.Read.val_main_v47_eq, Cert.ReferenceIdeal.RefValue.result_apply,
    Cert.KernelIdeal.KValue.result_apply m ρ c r j, h0, h1, h2, h3, h4, h5, h6, h7]
  have hh : Cert.ReferenceIdeal.RefValue.hid (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.KValue.hidK m c := by
    unfold Cert.ReferenceIdeal.RefValue.hid Cert.KernelIdeal.KValue.hidK
    rw [srcW_eq, dstW_eq, ← hidSumFirst_eq_hidBiasFirst]
  rw [hh, srcW_eq, dstW_eq]
  have hH : ∀ r q, IsReal (Cert.KernelIdeal.KValue.hidK m c r q) := fun r q =>
    hidSumFirst_isReal _ _ _ _ _ (nbrSum_isReal _ _ _ _ (fun a b => r0 _)) (fun a b => r0 _) (fun a b => r2 _) (fun a b => r4 _)
      (fun a => r3 _) r q
  rw [← preProjected_eq_preAggregated (n := 100000) (by decide) _ _ (Cert.KernelIdeal.KValue.hidK m c) _ _ _ hH (fun a b => r5 _)]

end Cert.Proof.Bridge

end
-- ==== Proof.lean ====
/-
  A two-layer neighbour-sum network on a graph of 100000 nodes and 1600000 edges, computed two ways, gives one result on
  the extended reals wherever every float input is finite.

  Each layer adds, at every node, the rows of its neighbours (the edges' destinations select the node, their sources the
  rows), multiplies by `W_l`, adds a bias and the node's own row times `W_r`; the first layer is followed by `max · 0`, the
  second by a softmax along each row.  The kernel keeps the neighbour sums outside its two pallas_calls, computes each
  layer's dense part block by block over 2000 rows, and in the second layer multiplies the hidden rows by `W_l2` BEFORE
  summing over neighbours; the reference sums first and multiplies afterwards.  On finite numbers a product distributes over a
  finite sum, so the two orders agree; every other difference is the order of three summands.

  The frames: the word-level and the idealized kernel by their generated frames; the reference by its generated run.  The
  idealization rewrote no operation, so there is nothing to preserve.  The value claim: the idealized kernel's run with its
  result named at the last segment boundary's contents, the reference's run with its result term, and the two equal entry by
  entry.
-/
import proofs.«418174_j56994216018168_4_alg».proof.Defs
import proofs.«418174_j56994216018168_4_alg».proof.Proof.Gen.Kernel
import proofs.«418174_j56994216018168_4_alg».proof.Proof.Gen.Kernel.Skeleton
import proofs.«418174_j56994216018168_4_alg».proof.Proof.Gen.Kernel.Launch
import proofs.«418174_j56994216018168_4_alg».proof.Proof.Gen.Kernel.Points
import proofs.«418174_j56994216018168_4_alg».proof.Proof.Gen.Kernel.Frame
import proofs.«418174_j56994216018168_4_alg».proof.Proof.Gen.KernelIdeal
import proofs.«418174_j56994216018168_4_alg».proof.Proof.Gen.KernelIdeal.Skeleton
import proofs.«418174_j56994216018168_4_alg».proof.Proof.Gen.KernelIdeal.Launch
import proofs.«418174_j56994216018168_4_alg».proof.Proof.Gen.KernelIdeal.Points
import proofs.«418174_j56994216018168_4_alg».proof.Proof.Gen.KernelIdeal.Frame
import proofs.«418174_j56994216018168_4_alg».proof.Proof.Gen.ReferenceIdeal
import proofs.«418174_j56994216018168_4_alg».proof.Proof.Gen.Pre_finite_inputs
import proofs.«418174_j56994216018168_4_alg».proof.Proof.Gen.ReferenceIdeal.Run
import proofs.«418174_j56994216018168_4_alg».proof.Proof.Gen.ReferenceIdeal.Read
import proofs.«418174_j56994216018168_4_alg».proof.Proof.KernelRun
import proofs.«418174_j56994216018168_4_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with one result: the kernel's output array at the last
    boundary, which the reference's result term equals entry by entry. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v28),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact Cert.Proof.Bridge.results_agree m ρ m' hpre c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
